-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S256x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S50000x3 .f32) (main_arg2 : FVec F S257x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg2
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S1x128 : Shape := ⟨2, ![1, 128]⟩
abbrev S8000x128 : Shape := ⟨2, ![8000, 128]⟩
abbrev S8000x1 : Shape := ⟨2, ![8000, 1]⟩
abbrev S5000x128 : Shape := ⟨2, ![5000, 128]⟩

abbrev nBuf : Space → Nat
  | .hbm => 73
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S257x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S2x800000, .i32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x3, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x3, .f32⟩
  | .hbm, ⟨33, _⟩ => ⟨S800000x3, .f32⟩
  | .hbm, ⟨34, _⟩ => ⟨S800000x3, .f32⟩
  | .hbm, ⟨35, _⟩ => ⟨S_, .f32⟩
  | .hbm, ⟨36, _⟩ => ⟨S800000, .f32⟩
  | .hbm, ⟨37, _⟩ => ⟨S800000x1, .f32⟩
  | .hbm, ⟨38, _⟩ => ⟨S50000x128, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .bf16⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .bf16⟩
  | .hbm, ⟨57, _⟩ => ⟨S128x128, .f32⟩
  | .hbm, ⟨58, _⟩ => ⟨S128x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S800000x128, .bf16⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S128x128, .f32⟩
  | .hbm, ⟨69, _⟩ => ⟨S128x128, .f32⟩
  | .hbm, ⟨70, _⟩ => ⟨S1x128, .f32⟩
  | .hbm, ⟨71, _⟩ => ⟨S1x128, .f32⟩
  | .hbm, ⟨72, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S8000x1, .f32⟩
  | .local _ .vmem, ⟨5, _⟩ => ⟨S8000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S8000x128, .bf16⟩
  | .local _ .vmem, ⟨13, _⟩ => ⟨S8000x128, .bf16⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bitsLt_bf16_f32 : FTy.bits .bf16 < FTy.bits .f32
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S8000x1_S8000x128 : S8000x1.Broadcasts S8000x128
  broadcasts_S1x128_S8000x128 : S1x128.Broadcasts S8000x128
  packedbf16_S8000x128_S8000x128_0_0 : (Rect.unit (s := S8000x128) ![0, 0] S8000x128.size inb_S8000x128_S8000x128_0_0).PackedRows (EltTy.packing .bf16)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .bf16 = 32 ∨ (Rect.block (s := S800000x128) S8000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S800000x1.size a
  hwx0_2 : ∀ i : grid0.Coords, EltTy.bits .f32 = 32 ∨ (Rect.block (s := S800000x1) S8000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x128.size a ≤ S800000x128.size a
  hwx0_9 : ∀ i : grid0.Coords, EltTy.bits .bf16 = 32 ∨ (Rect.block (s := S800000x128) S8000x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v29) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S8000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000x256 : Shape := ⟨2, ![50000, 256]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S257x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S2x800000, .i32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x3, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x3, .f32⟩
  | .hbm, ⟨33, _⟩ => ⟨S800000x3, .f32⟩
  | .hbm, ⟨34, _⟩ => ⟨S800000x3, .f32⟩
  | .hbm, ⟨35, _⟩ => ⟨S_, .f32⟩
  | .hbm, ⟨36, _⟩ => ⟨S800000, .f32⟩
  | .hbm, ⟨37, _⟩ => ⟨S800000x1, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x257, .f32⟩
  | .hbm, ⟨57, _⟩ => ⟨S800000x128, .f32⟩
  | .hbm, ⟨58, _⟩ => ⟨S1x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S800000x128, .f32⟩
  | .hbm, ⟨63, _⟩ => ⟨S800000x128, .f32⟩
  | .hbm, ⟨64, _⟩ => ⟨S800000x128, .f32⟩
  | .hbm, ⟨65, _⟩ => ⟨S1x128, .f32⟩
  | .hbm, ⟨66, _⟩ => ⟨S800000x128, .f32⟩
  | .hbm, ⟨67, _⟩ => ⟨S800000x128, .f32⟩
  | .hbm, ⟨68, _⟩ => ⟨S_, .f32⟩
  | .hbm, ⟨69, _⟩ => ⟨S800000x128, .f32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S50000x256, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_cst : Ref sig .tc := ⟨.hbm, 61, rfl⟩
abbrev main_call0_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call1_cst : Ref sig .tc := ⟨.hbm, 68, rfl⟩
abbrev main_call1_v0 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call2_cst : Ref sig .tc := ⟨.hbm, 80, rfl⟩
abbrev main_call2_v0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The entries of an EGNN layer over the extended reals, as functions of the operands one tile (or one whole array) holds.

  EDGE NETWORK. For an edge r with endpoint features a (r, ·) and b (r, ·) and squared distance d (r), the first layer's
  entry k is   relu ( sum_k' a (r, k') * Wa (k', k)  +  sum_k' b (r, k') * Wb (k', k)  +  d (r) * w (k)  +  bias1 (k) )
  and the edge feature's entry c is   relu ( sum_k hidden (r, k) * W2 (k, c)  +  bias2 (c) ).
  NODE NETWORK. For a node r with features h (r, ·) and aggregated edge features g (r, ·), the first layer's entry k is
  relu ( sum_k' h (r, k') * Wh (k', k)  +  sum_k' g (r, k') * Wg (k', k)  +  bias1 (k) )   and the output's entry c is
  h (r, c)  +  ( sum_k hidden (r, k) * W2 (k, c)  +  bias2 (c) ).
  An entry of row r reads row r of the row operands only, so the same formulas serve a tile of rows and a whole array.
  The rectified linear unit is the maximum with the float word zero, kept as that word.

  The operands a tile is handed are pieces of the network's parameters: 128 consecutive rows of a weight matrix, one row
  of it, or a bias vector laid out as a row; `rowsFrom`, `rowAt` and `asRow` name those pieces.
-/
import Idealize.ShloMosaic.Lib.ValueIdx
import Idealize.ShloMosaic.PureOps.Ideal

noncomputable section

namespace Cert.Egnn

open Idealize.ShloMosaic Idealize.ShloMosaic.ValueIdx

/-- A matrix of R rows and C columns over the extended reals, indexed as the arrays of a program are. -/
abbrev Mat (R C : ℕ) : Type := (⟨2, ![R, C]⟩ : Shape).Idx → EReal
/-- A vector of C entries over the extended reals. -/
abbrev Vct (C : ℕ) : Type := (⟨1, ![C]⟩ : Shape).Idx → EReal

/-- The float word zero read over the extended reals: what a rectified linear unit compares with. -/
def zeroWord : EReal := Ideal.ofBits .f32 0x00000000#32

/-- Rows o, o + 1, …, o + 127 of a matrix of 128 columns. -/
def rowsFrom (o : ℕ) {R : ℕ} (W : Mat R 128) (h : o + 128 ≤ R) : Mat 128 128 :=
  fun q => W (ix2 ⟨o + (q 0).val, by have := idx2_lt0 q; omega⟩ ⟨(q 1).val, idx2_lt1 q⟩)

/-- Row o of a matrix of 128 columns, as a matrix of one row. -/
def rowAt (o : ℕ) {R : ℕ} (W : Mat R 128) (h : o < R) : Mat 1 128 :=
  fun q => W (ix2 ⟨o, h⟩ ⟨(q 1).val, idx2_lt1 q⟩)

/-- A vector of 128 entries laid out as a matrix of one row. -/
def asRow (b : Vct 128) : Mat 1 128 :=
  fun q => b (ix1 ⟨(q 1).val, idx2_lt1 q⟩)

/-- Entry k of the edge network's first layer at edge r. -/
def edgeHidden {M : ℕ} (a b : Mat M 128) (d : Mat M 1) (Wa Wb : Mat 128 128) (w bias1 : Mat 1 128)
    (r : Fin M) (k : Fin 128) : EReal :=
  max ((((∑ k' : Fin 128, a (ix2 r k') * Wa (ix2 k' k)) + (∑ k' : Fin 128, b (ix2 r k') * Wb (ix2 k' k)))
    + d (ix2 r (0 : Fin 1)) * w (ix2 (0 : Fin 1) k)) + bias1 (ix2 (0 : Fin 1) k)) zeroWord

/-- Entry c of the edge feature of edge r. -/
def edgeTile {M : ℕ} (a b : Mat M 128) (d : Mat M 1) (Wa Wb : Mat 128 128) (w bias1 : Mat 1 128)
    (W2 : Mat 128 128) (bias2 : Mat 1 128) (r : Fin M) (c : Fin 128) : EReal :=
  max ((∑ k : Fin 128, edgeHidden a b d Wa Wb w bias1 r k * W2 (ix2 k c)) + bias2 (ix2 (0 : Fin 1) c)) zeroWord

/-- Entry k of the node network's first layer at node r. -/
def nodeHidden {N : ℕ} (h g : Mat N 128) (Wh Wg : Mat 128 128) (bias1 : Mat 1 128) (r : Fin N) (k : Fin 128) : EReal :=
  max (((∑ k' : Fin 128, h (ix2 r k') * Wh (ix2 k' k)) + (∑ k' : Fin 128, g (ix2 r k') * Wg (ix2 k' k)))
    + bias1 (ix2 (0 : Fin 1) k)) zeroWord

/-- Entry c of the layer's output at node r: the node's own feature plus the node network's second layer. -/
def nodeTile {N : ℕ} (h g : Mat N 128) (Wh Wg : Mat 128 128) (bias1 : Mat 1 128) (W2 : Mat 128 128) (bias2 : Mat 1 128)
    (r : Fin N) (c : Fin 128) : EReal :=
  h (ix2 r c) + ((∑ k : Fin 128, nodeHidden h g Wh Wg bias1 r k * W2 (ix2 k c)) + bias2 (ix2 (0 : Fin 1) c))

/-- An edge feature's entry reads row r of the row operands only: a tile whose row operands are rows of the arrays' and whose
    other operands are the arrays' has, at its row r, the arrays' entry at the corresponding row R. -/
theorem edgeTile_rows {M T : ℕ} (a b : Mat M 128) (d : Mat M 1) (at' bt : Mat T 128) (dt : Mat T 1)
    (Wa Wb : Mat 128 128) (w bias1 : Mat 1 128) (W2 : Mat 128 128) (bias2 : Mat 1 128)
    (r : Fin T) (R : Fin M) (c : Fin 128)
    (ha : ∀ k : Fin 128, at' (ix2 r k) = a (ix2 R k)) (hb : ∀ k : Fin 128, bt (ix2 r k) = b (ix2 R k))
    (hd : dt (ix2 r (0 : Fin 1)) = d (ix2 R (0 : Fin 1))) :
    edgeTile at' bt dt Wa Wb w bias1 W2 bias2 r c = edgeTile a b d Wa Wb w bias1 W2 bias2 R c := by
  unfold edgeTile edgeHidden
  simp only [ha, hb, hd]

/-- The same for the node network's output. -/
theorem nodeTile_rows {N T : ℕ} (h g : Mat N 128) (ht gt : Mat T 128)
    (Wh Wg : Mat 128 128) (bias1 : Mat 1 128) (W2 : Mat 128 128) (bias2 : Mat 1 128)
    (r : Fin T) (R : Fin N) (c : Fin 128)
    (hh : ∀ k : Fin 128, ht (ix2 r k) = h (ix2 R k)) (hg : ∀ k : Fin 128, gt (ix2 r k) = g (ix2 R k)) :
    nodeTile ht gt Wh Wg bias1 W2 bias2 r c = nodeTile h g Wh Wg bias1 W2 bias2 R c := by
  unfold nodeTile nodeHidden
  simp only [hh, hg]

end Cert.Egnn

end
-- ==== Proof.Pieces.lean ====
/-
  The operands a tile is handed, read off the network's parameters: a slice of 128 consecutive rows of a weight matrix of
  128 columns is `rowsFrom`, a slice of one row is `rowAt`, and a bias vector reshaped to one row is `asRow`.
  A slice at row offset o and column offset 0 reads entry (o + r, c); a reshape keeps the row-major position.
-/
import Idealize.ShloMosaic.Lib.ValueIdx
import Idealize.ShloMosaic.Lib.ValueLayout
import Idealize.ShloMosaic.Lib.Pipeline.Value
import proofs.«137947_j31825707663881_1_alg».proof.Proof.Spec

noncomputable section

namespace Cert.Egnn

open Idealize.ShloMosaic Idealize.ShloMosaic.ValueIdx

/-- Rows o … o + 127 of a matrix of 128 columns, sliced out. -/
theorem slice_rowsFrom (o : ℕ) {R : ℕ} (W : Mat R 128)
    (h : (⟨2, ![R, 128]⟩ : Shape).Slices ![o, 0] ⟨2, ![128, 128]⟩) (ho : o + 128 ≤ R) :
    extractStridedSlice ⟨2, ![128, 128]⟩ ![o, 0] W h = rowsFrom o W ho := by
  funext q
  refine extractStridedSlice_apply ![o, 0] W h q _ fun a => ?_
  match a with
  | ⟨0, _⟩ => rfl
  | ⟨1, _⟩ => show (q 1).val = 0 + (q 1).val; omega

/-- Row o of a matrix of 128 columns, sliced out as a matrix of one row. -/
theorem slice_rowAt (o : ℕ) {R : ℕ} (W : Mat R 128)
    (h : (⟨2, ![R, 128]⟩ : Shape).Slices ![o, 0] ⟨2, ![1, 128]⟩) (ho : o < R) :
    extractStridedSlice ⟨2, ![1, 128]⟩ ![o, 0] W h = rowAt o W ho := by
  funext q
  refine extractStridedSlice_apply ![o, 0] W h q _ fun a => ?_
  match a with
  | ⟨0, _⟩ =>
    have hq : (q 0).val = 0 := by have := idx2_lt0 q; omega
    show o = o + (q 0).val
    omega
  | ⟨1, _⟩ => show (q 1).val = 0 + (q 1).val; omega

/-- A vector of 128 entries reshaped to a matrix of one row. -/
theorem reshape_asRow (b : Vct 128) (h : (⟨1, ![128]⟩ : Shape).ShapeCasts ⟨2, ![1, 128]⟩) :
    shapeCast ⟨2, ![1, 128]⟩ b h = asRow b := by
  funext q
  obtain ⟨u, i, rfl⟩ : ∃ (u : Fin 1) (i : Fin 128), q = ix2 u i := ⟨q 0, q 1, eq_ix2 q⟩
  exact shapeCast_a_1a_apply b h u i

end Cert.Egnn

end
-- ==== Proof.KHost.lean ====
/-
  The kernel program's host operations, read: what each region finds in its operands' arrays.
  Before the edge region the host wraps negative indices, takes the endpoints' rows of the features and of the positions,
  forms the squared distance of every edge, and cuts the first edge weight matrix into its three pieces; these are the very
  operations the reference applies, so the arrays are the reference's stages of the same arguments (the change of float
  format in front of the takes is the identity over the extended reals). Between the regions the host widens the edge
  features, sums them into their source nodes and cuts the first node weight matrix into its two pieces.
-/
import proofs.«137947_j31825707663881_1_alg».proof.Proof.KernelIdealFrame
import proofs.«137947_j31825707663881_1_alg».proof.Proof.Gen.ReferenceIdeal.Read
import proofs.«137947_j31825707663881_1_alg».proof.Proof.Pieces
import Idealize.ShloMosaic.Lib.StableHlo.Run

set_option maxRecDepth 16384

noncomputable section

namespace Cert.KernelIdeal.HostRead

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the edge region -/

/-- The source endpoints' feature rows: the reference's take of the same rows. -/
theorem V1_v29 : V1 m ρ c main_v29 = Cert.ReferenceIdeal.Read.val_main_v28 (F := Ideal) (m ((c : Thread nD τ).loc main_arg0)) (m ((c : Thread nD τ).loc main_arg10)) := by
  show StableHlo.after hostOps0 (W0 m ρ c) (Proc.devRef .tc main_v29) = _
  dsimp only [hostOps0]
  after_results_simp
  rfl

/-- The target endpoints' feature rows. -/
theorem V1_v36 : V1 m ρ c main_v36 = Cert.ReferenceIdeal.Read.val_main_v35 (F := Ideal) (m ((c : Thread nD τ).loc main_arg0)) (m ((c : Thread nD τ).loc main_arg10)) := by
  show StableHlo.after hostOps0 (W0 m ρ c) (Proc.devRef .tc main_v36) = _
  dsimp only [hostOps0]
  after_results_simp
  rfl

/-- The squared distance of every edge, as a column. -/
theorem V1_v21 : V1 m ρ c main_v21 = Cert.ReferenceIdeal.Read.val_main_v21 (F := Ideal) (m ((c : Thread nD τ).loc main_arg1)) (m ((c : Thread nD τ).loc main_arg10)) := by
  show StableHlo.after hostOps0 (W0 m ρ c) (Proc.devRef .tc main_v21) = _
  dsimp only [hostOps0]
  after_results_simp
  rfl

/-- Rows 0 … 127 of the first edge weight matrix: the source features' part. -/
theorem V1_v37 : V1 m ρ c main_v37 = Cert.Egnn.rowsFrom 0 (m ((c : Thread nD τ).loc main_arg2)) (by norm_num) := by
  show StableHlo.after hostOps0 (W0 m ρ c) (Proc.devRef .tc main_v37) = _
  dsimp only [hostOps0]
  after_results_simp
  exact Cert.Egnn.slice_rowsFrom 0 _ _ _

/-- Rows 128 … 255: the target features' part. -/
theorem V1_v38 : V1 m ρ c main_v38 = Cert.Egnn.rowsFrom 128 (m ((c : Thread nD τ).loc main_arg2)) (by norm_num) := by
  show StableHlo.after hostOps0 (W0 m ρ c) (Proc.devRef .tc main_v38) = _
  dsimp only [hostOps0]
  after_results_simp
  exact Cert.Egnn.slice_rowsFrom 128 _ _ _

/-- Row 256: the squared distance's part. -/
theorem V1_v39 : V1 m ρ c main_v39 = Cert.Egnn.rowAt 256 (m ((c : Thread nD τ).loc main_arg2)) (by norm_num) := by
  show StableHlo.after hostOps0 (W0 m ρ c) (Proc.devRef .tc main_v39) = _
  dsimp only [hostOps0]
  after_results_simp
  exact Cert.Egnn.slice_rowAt 256 _ _ _

/-- The first edge bias as a row. -/
theorem V1_v40 : V1 m ρ c main_v40 = Cert.Egnn.asRow (m ((c : Thread nD τ).loc main_arg3)) := by
  show StableHlo.after hostOps0 (W0 m ρ c) (Proc.devRef .tc main_v40) = _
  dsimp only [hostOps0]
  after_results_simp
  exact Cert.Egnn.reshape_asRow _ _

/-- The second edge weight matrix is an argument, untouched. -/
theorem V1_arg4 : V1 m ρ c main_arg4 = (m ((c : Thread nD τ).loc main_arg4)) := by
  show StableHlo.after hostOps0 (W0 m ρ c) (Proc.devRef .tc main_arg4) = _
  dsimp only [hostOps0]
  after_results_simp <;> rfl

/-- The second edge bias as a row. -/
theorem V1_v41 : V1 m ρ c main_v41 = Cert.Egnn.asRow (m ((c : Thread nD τ).loc main_arg5)) := by
  show StableHlo.after hostOps0 (W0 m ρ c) (Proc.devRef .tc main_v41) = _
  dsimp only [hostOps0]
  after_results_simp
  exact Cert.Egnn.reshape_asRow _ _

/-! ## Across the edge region: what it does not write it leaves -/

theorem W2_arg0 : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  dsimp only [hostOps0]
  after_results_simp <;> rfl

theorem W2_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  dsimp only [hostOps0]
  after_results_simp <;> rfl

theorem W2_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  dsimp only [hostOps0]
  after_results_simp <;> rfl

theorem W2_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  dsimp only [hostOps0]
  after_results_simp <;> rfl

theorem W2_arg9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  dsimp only [hostOps0]
  after_results_simp <;> rfl

/-- The source endpoint of every edge, as the host read it before the edge region: the reference's. -/
theorem W2_v1 : W2 m ρ c (Proc.devRef .tc main_v1) = Cert.ReferenceIdeal.Read.val_main_v1 (F := Ideal) (m ((c : Thread nD τ).loc main_arg10)) := by
  rw [W2_of_ne m ρ c main_v1 (by decide)]
  show StableHlo.after hostOps0 (W0 m ρ c) (Proc.devRef .tc main_v1) = _
  dsimp only [hostOps0]
  after_results_simp
  rfl

/-! ## Between the regions -/

/-- The node features are an argument, untouched. -/
theorem V3_arg0 : V3 m ρ c main_arg0 = (m ((c : Thread nD τ).loc main_arg0)) := by
  show StableHlo.after hostOps1 (W2 m ρ c) (Proc.devRef .tc main_arg0) = _
  dsimp only [hostOps1]
  after_results_simp
  exact W2_arg0 m ρ c

/-- The aggregate: the edge features the edge region left, widened, summed into their source nodes. -/
theorem V3_v46 : V3 m ρ c main_v46 = Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 (W2 m ρ c (Proc.devRef .tc main_v1)))
      (extf (F := Ideal) .f32 (W2 m ρ c (Proc.devRef .tc main_v42) : FVec Ideal S800000x128 .bf16) bitsLt_bf16_f32) := by
  show StableHlo.after hostOps1 (W2 m ρ c) (Proc.devRef .tc main_v46) = _
  dsimp only [hostOps1]
  after_results_simp <;> rfl

/-- Rows 0 … 127 of the first node weight matrix: the features' part. -/
theorem V3_v47 : V3 m ρ c main_v47 = Cert.Egnn.rowsFrom 0 (m ((c : Thread nD τ).loc main_arg6)) (by norm_num) := by
  show StableHlo.after hostOps1 (W2 m ρ c) (Proc.devRef .tc main_v47) = _
  dsimp only [hostOps1]
  after_results_simp
  rw [W2_arg6]
  exact Cert.Egnn.slice_rowsFrom 0 _ _ _

/-- Rows 128 … 255: the aggregate's part. -/
theorem V3_v48 : V3 m ρ c main_v48 = Cert.Egnn.rowsFrom 128 (m ((c : Thread nD τ).loc main_arg6)) (by norm_num) := by
  show StableHlo.after hostOps1 (W2 m ρ c) (Proc.devRef .tc main_v48) = _
  dsimp only [hostOps1]
  after_results_simp
  rw [W2_arg6]
  exact Cert.Egnn.slice_rowsFrom 128 _ _ _

/-- The first node bias as a row. -/
theorem V3_v49 : V3 m ρ c main_v49 = Cert.Egnn.asRow (m ((c : Thread nD τ).loc main_arg7)) := by
  show StableHlo.after hostOps1 (W2 m ρ c) (Proc.devRef .tc main_v49) = _
  dsimp only [hostOps1]
  after_results_simp
  rw [W2_arg7]
  exact Cert.Egnn.reshape_asRow _ _

/-- The second node weight matrix is an argument, untouched. -/
theorem V3_arg8 : V3 m ρ c main_arg8 = (m ((c : Thread nD τ).loc main_arg8)) := by
  show StableHlo.after hostOps1 (W2 m ρ c) (Proc.devRef .tc main_arg8) = _
  dsimp only [hostOps1]
  after_results_simp
  exact W2_arg8 m ρ c

/-- The second node bias as a row. -/
theorem V3_v50 : V3 m ρ c main_v50 = Cert.Egnn.asRow (m ((c : Thread nD τ).loc main_arg9)) := by
  show StableHlo.after hostOps1 (W2 m ρ c) (Proc.devRef .tc main_v50) = _
  dsimp only [hostOps1]
  after_results_simp
  rw [W2_arg9]
  exact Cert.Egnn.reshape_asRow _ _

end Cert.KernelIdeal.HostRead

end
-- ==== Proof.EdgeRegion.lean ====
/-
  REGION 0 of the kernel program, the edge network, read off its frame: what one grid point's body stores, entry by entry,
  and the array of edge features the 100 points leave.

  The body stores  relu ( relu ( a · Wa + b · Wb + d ⊗ w + bias1 ) · W2 + bias2 )  for its tile of 8000 edges, where a and b
  are the tile's rows of the two endpoint features, d its column of squared distances, and ⊗ spreads a column against a row.
  Over the extended reals a narrowing conversion is the identity and a product into the zero accumulator is the plain sum
  over the contracted index, so the stored entry (r, c) is `Cert.Egnn.edgeTile` of the tile's operands. Point t's tile is rows
  8000 t … 8000 t + 7999 of the row operands and of the output, and the whole of every other operand, so the array the
  region leaves has, at row 8000 t + r, the edge feature of that row of the arrays.
-/
import proofs.«137947_j31825707663881_1_alg».proof.Proof.KernelIdealFrame
import proofs.«137947_j31825707663881_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.EdgeRegion

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-! ## The product of a tile of rows with a square matrix, entry by entry -/

/-! The operands' indices at output index i and contraction index q, axis by axis: the left operand is read at row i 0 and
    column q, the right operand at row q and column i 1. -/

theorem lhs_tileDot_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_tileDot_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_tileDot_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_tileDot_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A product into the zero accumulator, read at entry (r, c): the sum over k of row r's entry k times column c's entry k. -/
theorem matmul_entry {φ₁ φ₂ : FTy} (A : FVec Ideal S8000x128 φ₁) (B : FVec Ideal S128x128 φ₂) (r : Fin 8000) (c : Fin 128) :
    matmul dot_S8000x128_S128x128_S8000x128_1_0_0_1_n_n none A B (constant (F := Ideal) S8000x128 .f32 0x00000000#32) (ix2 r c)
      = ∑ k : Fin 128, A (ix2 r k) * B (ix2 k c) := by
  simp only [matmul]
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 r c) ((contrEquiv1 dot_S8000x128_S128x128_S8000x128_1_0_0_1_n_n 128 rfl rfl).symm k) = ix2 r k := funext fun a => Fin.ext (by
    match a with
    | ⟨0, _⟩ => exact lhs_tileDot_0 _ _
    | ⟨1, _⟩ => exact (lhs_tileDot_1 _ _).trans hk)
  have er : dot_S8000x128_S128x128_S8000x128_1_0_0_1_n_n.rhsIdx (ix2 r c) ((contrEquiv1 dot_S8000x128_S128x128_S8000x128_1_0_0_1_n_n 128 rfl rfl).symm k) = ix2 k c := funext fun a => Fin.ext (by
    match a with
    | ⟨0, _⟩ => exact (rhs_tileDot_0 _ _).trans hk
    | ⟨1, _⟩ => exact rhs_tileDot_1 _ _)
  rw [el, er]

/-! ## A column spread over the columns of a tile -/

/-- An array of one column spread to b columns reads, at (p, c), the operand's row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The edge kernel's store, entry by entry -/

theorem zeros2 : (![0, 0] : Fin 2 → Nat) = fun _ => 0 := funext fun a => by fin_cases a <;> rfl

/-- What the edge kernel's body leaves in its output tile, read at entry (r, c), is the edge feature of the tile's row r at
    column c: both layers' products are sums over the 128 hidden columns, the squared distance and the biases are spread over
    the tile, and each rectified linear unit is a maximum with the float word zero. -/
theorem edge_payload (x0 x1 : Vec Ideal S8000x128 .bf16) (x2 : Vec Ideal S8000x1 .f32) (x3 x4 : Vec Ideal S128x128 .f32)
    (x5 x6 : Vec Ideal S1x128 .f32) (x7 : Vec Ideal S128x128 .f32) (x8 : Vec Ideal S1x128 .f32) (r : Fin 8000) (c : Fin 128) :
    GenP.out0_9 (F := Ideal) x0 x1 x2 x3 x4 x5 x6 x7 x8 (ix2 r c) = Cert.Egnn.edgeTile x0 x1 x2 x3 x4 x5 x6 x7 x8 r c := by
  unfold out0_9
  rw [View.canon_unit_zero zeros2]
  simp only [View.ld_unit_zero (S := S8000x128) zeros2, View.ld_unit_zero (S := S128x128) zeros2,
    View.ld_unit_zero (S := S8000x1) zeros2, View.ld_unit_zero (S := S1x128) zeros2]
  unfold k0_pay1 k0_pay2 k0_pay3
  simp only [shapeCast_self, truncf_apply, maximumf_apply, addf_apply, mulf_apply, broadcast_apply, matmul_entry,
    broadcastTo_1b_ab_apply, broadcastTo_a1_ab_apply, Ideal.ofBits_def]
  unfold Cert.Egnn.edgeTile Cert.Egnn.edgeHidden Cert.Egnn.zeroWord
  rfl

/-! ## From the tiles to the array of edge features -/

section Region
variable (V : (c : Dev nD) → (b : Ref sig .tc) → Buf (Elt Ideal) ((c : Thread nD τ).loc b)) (c : Dev nD)

/-- The edge features of all 800000 edges, from the arrays the region finds. -/
abbrev edgeArray : S800000x128.Idx → EReal := fun i =>
  Cert.Egnn.edgeTile (V c main_v29) (V c main_v36) (V c main_v21) (V c main_v37) (V c main_v38) (V c main_v39) (V c main_v40)
    (V c main_arg4) (V c main_v41) ⟨(i 0).val, idx2_lt0 i⟩ ⟨(i 1).val, idx2_lt1 i⟩

/-- The grid has 100 points. -/
theorem points_eq : cfg0.N = 100 := by decide

/-- The printed index maps, decided over the grid: at point t the block of each row operand and of the output is block (t, 0);
    every other operand's is block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! Each operand's block at point t, read where the array holds it: a block's coordinate is its index times its size plus
    the coordinate inside it. -/

theorem rows0_apply (t : Fin cfg0.N) (p : Fin 8000) (k : Fin 128) (R : Fin 800000) (hR : R.val = t.val * 8000 + p.val) :
    (iblk0 V c 0 t : Vec Ideal S8000x128 .bf16) (ix2 p k) = (V c main_v29 : S800000x128.Idx → EReal) (ix2 R k) := by
  obtain ⟨⟨e0, e1⟩, -⟩ := index_facts t
  show (V c main_v29 : S800000x128.Idx → EReal) (((cfg0.win 0).blk t).view.emb (ix2 p k)) = _
  refine congrArg _ (funext fun a => Fin.ext ?_)
  match a with
  | ⟨0, _⟩ => show win0_0.index t (0 : Fin 2) * 8000 + 1 * p.val = R.val; omega
  | ⟨1, _⟩ => show win0_0.index t (1 : Fin 2) * 128 + 1 * k.val = k.val; omega

theorem rows1_apply (t : Fin cfg0.N) (p : Fin 8000) (k : Fin 128) (R : Fin 800000) (hR : R.val = t.val * 8000 + p.val) :
    (iblk0 V c 1 t : Vec Ideal S8000x128 .bf16) (ix2 p k) = (V c main_v36 : S800000x128.Idx → EReal) (ix2 R k) := by
  obtain ⟨-, ⟨e0, e1⟩, -⟩ := index_facts t
  show (V c main_v36 : S800000x128.Idx → EReal) (((cfg0.win 1).blk t).view.emb (ix2 p k)) = _
  refine congrArg _ (funext fun a => Fin.ext ?_)
  match a with
  | ⟨0, _⟩ => show win0_1.index t (0 : Fin 2) * 8000 + 1 * p.val = R.val; omega
  | ⟨1, _⟩ => show win0_1.index t (1 : Fin 2) * 128 + 1 * k.val = k.val; omega

theorem rows2_apply (t : Fin cfg0.N) (p : Fin 8000) (R : Fin 800000) (hR : R.val = t.val * 8000 + p.val) :
    (iblk0 V c 2 t : Vec Ideal S8000x1 .f32) (ix2 p (0 : Fin 1)) = (V c main_v21 : S800000x1.Idx → EReal) (ix2 R (0 : Fin 1)) := by
  obtain ⟨-, -, ⟨e0, e1⟩, -⟩ := index_facts t
  show (V c main_v21 : S800000x1.Idx → EReal) (((cfg0.win 2).blk t).view.emb (ix2 p (0 : Fin 1))) = _
  refine congrArg _ (funext fun a => Fin.ext ?_)
  match a with
  | ⟨0, _⟩ => show win0_2.index t (0 : Fin 2) * 8000 + 1 * p.val = R.val; omega
  | ⟨1, _⟩ => show win0_2.index t (1 : Fin 2) * 1 + 1 * 0 = 0; omega

theorem whole3 (t : Fin cfg0.N) : (iblk0 V c 3 t : Vec Ideal S128x128 .f32) = (V c main_v37 : S128x128.Idx → EReal) := by
  obtain ⟨-, -, -, ⟨e0, e1⟩, -⟩ := index_facts t
  funext y
  show (V c main_v37 : S128x128.Idx → EReal) (((cfg0.win 3).blk t).view.emb y) = _
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem whole4 (t : Fin cfg0.N) : (iblk0 V c 4 t : Vec Ideal S128x128 .f32) = (V c main_v38 : S128x128.Idx → EReal) := by
  obtain ⟨-, -, -, -, ⟨e0, e1⟩, -⟩ := index_facts t
  funext y
  show (V c main_v38 : S128x128.Idx → EReal) (((cfg0.win 4).blk t).view.emb y) = _
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem whole5 (t : Fin cfg0.N) : (iblk0 V c 5 t : Vec Ideal S1x128 .f32) = (V c main_v39 : S1x128.Idx → EReal) := by
  obtain ⟨-, -, -, -, -, ⟨e0, e1⟩, -⟩ := index_facts t
  funext y
  show (V c main_v39 : S1x128.Idx → EReal) (((cfg0.win 5).blk t).view.emb y) = _
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem whole6 (t : Fin cfg0.N) : (iblk0 V c 6 t : Vec Ideal S1x128 .f32) = (V c main_v40 : S1x128.Idx → EReal) := by
  obtain ⟨-, -, -, -, -, -, ⟨e0, e1⟩, -⟩ := index_facts t
  funext y
  show (V c main_v40 : S1x128.Idx → EReal) (((cfg0.win 6).blk t).view.emb y) = _
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem whole7 (t : Fin cfg0.N) : (iblk0 V c 7 t : Vec Ideal S128x128 .f32) = (V c main_arg4 : S128x128.Idx → EReal) := by
  obtain ⟨-, -, -, -, -, -, -, ⟨e0, e1⟩, -⟩ := index_facts t
  funext y
  show (V c main_arg4 : S128x128.Idx → EReal) (((cfg0.win 7).blk t).view.emb y) = _
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem whole8 (t : Fin cfg0.N) : (iblk0 V c 8 t : Vec Ideal S1x128 .f32) = (V c main_v41 : S1x128.Idx → EReal) := by
  obtain ⟨-, -, -, -, -, -, -, -, ⟨e0, e1⟩, -⟩ := index_facts t
  funext y
  show (V c main_v41 : S1x128.Idx → EReal) (((cfg0.win 8).blk t).view.emb y) = _
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Point t's tile of edge features, at its entry (p, q), is the array of edge features at row 8000 t + p. -/
theorem tile_eq_array (t : Fin cfg0.N) (p : Fin 8000) (q : Fin 128) (i : S800000x128.Idx)
    (h0 : (i 0).val = t.val * 8000 + p.val) (h1 : (i 1).val = q.val) :
    Cert.Egnn.edgeTile (iblk0 V c 0 t : Vec Ideal S8000x128 .bf16) (iblk0 V c 1 t : Vec Ideal S8000x128 .bf16)
      (iblk0 V c 2 t : Vec Ideal S8000x1 .f32) (iblk0 V c 3 t : Vec Ideal S128x128 .f32) (iblk0 V c 4 t : Vec Ideal S128x128 .f32)
      (iblk0 V c 5 t : Vec Ideal S1x128 .f32) (iblk0 V c 6 t : Vec Ideal S1x128 .f32) (iblk0 V c 7 t : Vec Ideal S128x128 .f32)
      (iblk0 V c 8 t : Vec Ideal S1x128 .f32) p q = edgeArray V c i := by
  rw [whole3, whole4, whole5, whole6, whole7, whole8]
  have hq : (⟨(i 1).val, idx2_lt1 i⟩ : Fin 128) = q := Fin.ext h1
  show _ = Cert.Egnn.edgeTile _ _ _ _ _ _ _ _ _ ⟨(i 0).val, idx2_lt0 i⟩ ⟨(i 1).val, idx2_lt1 i⟩
  rw [hq]
  exact Cert.Egnn.edgeTile_rows _ _ _ _ _ _ _ _ _ _ _ _ p ⟨(i 0).val, idx2_lt0 i⟩ q
    (fun k => rows0_apply V c t p k _ h0) (fun k => rows1_apply V c t p k _ h0) (rows2_apply V c t p _ h0)

/-- What point t writes back is block t of the array of edge features. -/
theorem flushed_eq (t : Fin cfg0.N) :
    (dat0 V c).flushed 9 t = ((cfg0.win 9).blk t).view.read (Elt Ideal) (edgeArray V c) := by
  show (cfg0.win 9).cut (grid0.coords t) ((dat0 V c).after 9 t) = _
  rw [after0_9]
  obtain ⟨-, -, -, -, -, -, -, -, -, ⟨e0, e1⟩⟩ := index_facts t
  funext y
  obtain ⟨p, q, rfl⟩ : ∃ (p : Fin 8000) (q : Fin 128), y = ix2 p q := ⟨y 0, y 1, eq_ix2 y⟩
  show out0_9 (iblk0 V c 0 t) (iblk0 V c 1 t) (iblk0 V c 2 t) (iblk0 V c 3 t) (iblk0 V c 4 t) (iblk0 V c 5 t) (iblk0 V c 6 t)
    (iblk0 V c 7 t) (iblk0 V c 8 t) (ix2 p q) = edgeArray V c (((cfg0.win 9).blk t).view.emb (ix2 p q))
  refine (edge_payload _ _ _ _ _ _ _ _ _ p q).trans (tile_eq_array V c t p q _ ?_ ?_)
  · show win0_9.index t (0 : Fin 2) * 8000 + 1 * p.val = t.val * 8000 + p.val; omega
  · show win0_9.index t (1 : Fin 2) * 128 + 1 * q.val = q.val; omega

/-- An index of the array is in point t's block iff each coordinate is in the block's range on its axis. -/
theorem mem_blk (t : Fin cfg0.N) (i : S800000x128.Idx) :
    i ∈ ((cfg0.win 9).blk t).view.set ↔ ∀ a : Fin 2, win0_9.index t a * S8000x128.size a ≤ (i a).val ∧ (i a).val < win0_9.index t a * S8000x128.size a + S8000x128.size a := by
  show i ∈ ((View.whole main_v42).slice (win0_9.rect t)).set ↔ _
  rw [View.set_slice_whole, Rect.mem_set_unit]
  exact Iff.rfl

/-- Every row of the array lies in the block of the point its number divided by 8000 names, and every point writes back. -/
theorem covered (i : S800000x128.Idx) : ∃ t : Fin cfg0.N, (cfg0.win 9).flush t = true ∧ i ∈ ((cfg0.win 9).blk t).view.set := by
  have hi0 : (i 0).val < 800000 := idx2_lt0 i
  have hi1 : (i 1).val < 128 := idx2_lt1 i
  have hN := points_eq
  refine ⟨⟨(i 0).val / 8000, by omega⟩, flush0_9 _, ?_⟩
  obtain ⟨-, -, -, -, -, -, -, -, -, ⟨e0, e1⟩⟩ := index_facts ⟨(i 0).val / 8000, by omega⟩
  rw [mem_blk]
  intro a
  match a with
  | ⟨0, _⟩ => show win0_9.index _ (0 : Fin 2) * 8000 ≤ (i 0).val ∧ (i 0).val < win0_9.index _ (0 : Fin 2) * 8000 + 8000; rw [e0]; show (i 0).val / 8000 * 8000 ≤ (i 0).val ∧ (i 0).val < (i 0).val / 8000 * 8000 + 8000; omega
  | ⟨1, _⟩ => show win0_9.index _ (1 : Fin 2) * 128 ≤ (i 1).val ∧ (i 1).val < win0_9.index _ (1 : Fin 2) * 128 + 128; rw [e1]; omega

/-- THE ARRAY THE REGION LEAVES: the edge features of all 800000 edges, from the arrays the region finds. -/
theorem region_array :
    (GenP.dat0 (F := Ideal) V c).arrAt 9 cfg0.N = fun i =>
      Cert.Egnn.edgeTile (V c main_v29) (V c main_v36) (V c main_v21) (V c main_v37) (V c main_v38) (V c main_v39) (V c main_v40)
        (V c main_arg4) (V c main_v41) ⟨(i 0).val, idx2_lt0 i⟩ ⟨(i 1).val, idx2_lt1 i⟩ :=
  (dat0 V c).arrAt_eq_of_cover 9 (edgeArray V c) (fun t _ => flushed_eq V c t) (covered)

end Region

end Cert.KernelIdeal.EdgeRegion

end
-- ==== Proof.NodeRegion.lean ====
/-
  The node network's kernel region, read off its frame.

  One grid point is handed a tile of 5000 rows of the node features h and of the aggregated edge features g, the two
  halves Wh, Wg of the first layer's weights, its bias, the second layer's weights and its bias. What it leaves in the
  output window's buffer is, entry by entry, the node network's output on that tile:
      out (r, c) = h (r, c) + ( sum_k relu ( sum_k' h (r, k') Wh (k', k) + sum_k' g (r, k') Wg (k', k) + b1 (k) ) W2 (k, c) + b2 (c) ).
  The ten tiles are the ten blocks of 5000 consecutive rows of the arrays of 50000 rows, and an entry of row r reads row r
  of h and g only; so the array the region leaves is the same formula over the whole arrays, row by row.
-/
import proofs.«137947_j31825707663881_1_alg».proof.Proof.KernelIdealFrame
import proofs.«137947_j31825707663881_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.NodeRegion

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-! ## One matrix product of the tile, read at an entry -/

/-- The offsets of a whole-buffer access are all zero. -/
theorem offsets_zero : (![0, 0] : Fin 2 → Nat) = fun _ => 0 := funext fun a => by fin_cases a <;> rfl

/-- The left operand's row coordinate is the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted index. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted index. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a tile of 5000 rows with a matrix of 128 rows, accumulated from zero, is at entry (r, c) the sum over k of
    the tile's (r, k) times the matrix's (k, c). -/
theorem product_at {φ₁ φ₂ : FTy} (A : FVec Ideal S5000x128 φ₁) (B : FVec Ideal S128x128 φ₂) (r : Fin 5000) (c : Fin 128) :
    matmul dot_S5000x128_S128x128_S5000x128_1_0_0_1_n_n none A B (constant (F := Ideal) S5000x128 .f32 0x00000000#32) (ix2 r c)
      = ∑ k : Fin 128, A (ix2 r k) * B (ix2 k c) := by
  show FloatOps.matmul dot_S5000x128_S128x128_S5000x128_1_0_0_1_n_n none A B (constant (F := Ideal) S5000x128 .f32 0x00000000#32) (ix2 r c) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r c) ((contrEquiv1 dot_S5000x128_S128x128_S5000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 r c) ((contrEquiv1 dot_S5000x128_S128x128_S5000x128_1_0_0_1_n_n 128 rfl rfl).symm k) = ix2 k c := funext fun a => Fin.ext (by
    match a with
    | ⟨0, _⟩ => exact (rhs_axis0 _ _).trans hk
    | ⟨1, _⟩ => exact rhs_axis1 _ _)
  rw [el, er]

/-! ## What a grid point leaves in the output window's buffer -/

/-- The first layer at entry (r, k) of the tile, as the body computes it: the two products added, the bias row added on
    every row, the maximum with the float word zero. -/
theorem hidden_at (x0 x1 : Vec Ideal S5000x128 .f32) (x2 x3 : Vec Ideal S128x128 .f32) (x4 : Vec Ideal S1x128 .f32)
    (r : Fin 5000) (k : Fin 128) :
    max ((matmul dot_S5000x128_S128x128_S5000x128_1_0_0_1_n_n none (truncf .bf16 x0 bitsLt_bf16_f32 : FVec Ideal S5000x128 .bf16)
            (truncf .bf16 (x2 : FVec Ideal S128x128 .f32) bitsLt_bf16_f32 : FVec Ideal S128x128 .bf16) (constant (F := Ideal) S5000x128 .f32 0x00000000#32) (ix2 r k)
          + matmul dot_S5000x128_S128x128_S5000x128_1_0_0_1_n_n none (truncf .bf16 x1 bitsLt_bf16_f32 : FVec Ideal S5000x128 .bf16)
            (truncf .bf16 (x3 : FVec Ideal S128x128 .f32) bitsLt_bf16_f32 : FVec Ideal S128x128 .bf16) (constant (F := Ideal) S5000x128 .f32 0x00000000#32) (ix2 r k))
        + broadcastTo S5000x128 (x4 : FVec Ideal S1x128 .f32) broadcasts_S1x128_S5000x128 (ix2 r k))
      (Ideal.ofBits .f32 0x00000000#32)
    = Cert.Egnn.nodeHidden x0 x1 x2 x3 x4 r k := by
  rw [product_at, product_at, broadcastTo_1b_ab_apply]
  rfl

/-- The output window's buffer after the body, at entry (r, c), is the node network's output on the tile. -/
theorem out_at (x0 x1 : Vec Ideal S5000x128 .f32) (x2 x3 : Vec Ideal S128x128 .f32) (x4 : Vec Ideal S1x128 .f32)
    (x5 : Vec Ideal S128x128 .f32) (x6 : Vec Ideal S1x128 .f32) (r : Fin 5000) (c : Fin 128) :
    GenP.out1_7 (F := Ideal) x0 x1 x2 x3 x4 x5 x6 (ix2 r c) = Cert.Egnn.nodeTile x0 x1 x2 x3 x4 x5 x6 r c := by
  unfold GenP.out1_7
  rw [View.canon_unit_zero offsets_zero]
  simp only [View.ld_unit_zero (S := S5000x128) offsets_zero, View.ld_unit_zero (S := S128x128) offsets_zero,
    View.ld_unit_zero (S := S1x128) offsets_zero]
  unfold k1_pay1
  simp only [shapeCast_self]
  rw [addf_apply, addf_apply, product_at, broadcastTo_1b_ab_apply]
  unfold Cert.Egnn.nodeTile
  refine congrArg (x0 (ix2 r c) + ·) (congrArg (· + x6 (ix2 (0 : Fin 1) c)) (Finset.sum_congr rfl fun k _ => ?_))
  rw [truncf_apply, truncf_apply]
  exact congrArg (· * x5 (ix2 k c)) (hidden_at x0 x1 x2 x3 x4 r k)

/-! ## From the tiles to the array -/

/-- The same entry with the tile's operands named by what they are pieces of: the tile's row (j 0) of h and g is row R of
    the arrays H and G, and the other five operands are the whole parameter arrays. -/
theorem point_entry (H G : Cert.Egnn.Mat 50000 128) (Wh Wg : Cert.Egnn.Mat 128 128) (b1 : Cert.Egnn.Mat 1 128)
    (W2 : Cert.Egnn.Mat 128 128) (b2 : Cert.Egnn.Mat 1 128)
    (x0 x1 : Vec Ideal S5000x128 .f32) (x2 x3 : Vec Ideal S128x128 .f32) (x4 : Vec Ideal S1x128 .f32)
    (x5 : Vec Ideal S128x128 .f32) (x6 : Vec Ideal S1x128 .f32)
    (j : S5000x128.Idx) (R : Fin 50000) (C : Fin 128) (hC : C.val = (j 1).val)
    (h0 : ∀ k : Fin 128, x0 (ix2 (j 0) k) = H (ix2 R k)) (h1 : ∀ k : Fin 128, x1 (ix2 (j 0) k) = G (ix2 R k))
    (h2 : ∀ z, x2 z = Wh z) (h3 : ∀ z, x3 z = Wg z) (h4 : ∀ z, x4 z = b1 z) (h5 : ∀ z, x5 z = W2 z) (h6 : ∀ z, x6 z = b2 z) :
    GenP.out1_7 (F := Ideal) x0 x1 x2 x3 x4 x5 x6 j = Cert.Egnn.nodeTile H G Wh Wg b1 W2 b2 R C := by
  obtain rfl : x2 = Wh := funext h2
  obtain rfl : x3 = Wg := funext h3
  obtain rfl : x4 = b1 := funext h4
  obtain rfl : x5 = W2 := funext h5
  obtain rfl : x6 = b2 := funext h6
  obtain ⟨p, q, rfl⟩ : ∃ (p : Fin 5000) (q : Fin 128), j = ix2 p q := ⟨j 0, j 1, eq_ix2 j⟩
  obtain rfl : C = q := Fin.ext hC
  rw [out_at]
  exact Cert.Egnn.nodeTile_rows H G x0 x1 x2 x3 x4 x5 x6 p R C h0 h1

/-- The index maps, decided once over the grid: at point t the row windows (h, g and the output) are on block
    (t, 0), and the five parameter windows on block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The array the region leaves, as a function of the arrays it finds: the node network's output, row by row. -/
abbrev regionArray (V : (c : Dev nD) → (b : Ref sig .tc) → Buf (Elt Ideal) ((c : Thread nD τ).loc b)) (c : Dev nD) :
    S50000x128.Idx → EReal :=
  fun i => Cert.Egnn.nodeTile (V c main_arg0 : S50000x128.Idx → EReal) (V c main_v46 : S50000x128.Idx → EReal)
    (V c main_v47 : S128x128.Idx → EReal) (V c main_v48 : S128x128.Idx → EReal) (V c main_v49 : S1x128.Idx → EReal)
    (V c main_arg8 : S128x128.Idx → EReal) (V c main_v50 : S1x128.Idx → EReal) ⟨(i 0).val, idx2_lt0 i⟩ ⟨(i 1).val, idx2_lt1 i⟩

/-- What point t writes back is block t of that array: the tile's row r is the arrays' row 5000 t + r. -/
theorem flushed_eq (V : (c : Dev nD) → (b : Ref sig .tc) → Buf (Elt Ideal) ((c : Thread nD τ).loc b)) (c : Dev nD)
    (t : Fin cfg1.N) :
    (GenP.dat1 (F := Ideal) V c).flushed 7 t = ((cfg1.win 7).blk t).view.read (Elt Ideal) (regionArray V c) := by
  show (cfg1.win 7).cut (grid1.coords t) ((GenP.dat1 (F := Ideal) V c).after 7 t) = _
  rw [GenP.after1_7]
  obtain ⟨e00, e01, e10, e11, e20, e21, e30, e31, e40, e41, e50, e51, e60, e61, e70, e71⟩ := block_indices t
  refine funext fun (y : S5000x128.Idx) => ?_
  refine point_entry (V c main_arg0 : S50000x128.Idx → EReal) (V c main_v46 : S50000x128.Idx → EReal)
    (V c main_v47 : S128x128.Idx → EReal) (V c main_v48 : S128x128.Idx → EReal) (V c main_v49 : S1x128.Idx → EReal)
    (V c main_arg8 : S128x128.Idx → EReal) (V c main_v50 : S1x128.Idx → EReal)
    _ _ _ _ _ _ _ ((cfg1.win 7).xinj (grid1.coords t) y)
    ⟨((((cfg1.win 7).blk t).view.emb y) 0).val, idx2_lt0 _⟩ ⟨((((cfg1.win 7).blk t).view.emb y) 1).val, idx2_lt1 _⟩
    ?_ ?_ ?_ ?_ ?_ ?_ ?_ ?_
  · show win1_7.index t (1 : Fin 2) * 128 + 1 * (y 1).val = (y 1).val
    omega
  · intro k
    show (V c main_arg0 : S50000x128.Idx → EReal) (((cfg1.win 0).blk t).view.emb (ix2 ((cfg1.win 7).xinj (grid1.coords t) y 0) k)) = _
    refine congrArg _ (funext fun a => Fin.ext ?_)
    match a with
    | ⟨0, _⟩ => show win1_0.index t (0 : Fin 2) * 5000 + 1 * (y 0).val = win1_7.index t (0 : Fin 2) * 5000 + 1 * (y 0).val; omega
    | ⟨1, _⟩ => show win1_0.index t (1 : Fin 2) * 128 + 1 * k.val = k.val; omega
  · intro k
    show (V c main_v46 : S50000x128.Idx → EReal) (((cfg1.win 1).blk t).view.emb (ix2 ((cfg1.win 7).xinj (grid1.coords t) y 0) k)) = _
    refine congrArg _ (funext fun a => Fin.ext ?_)
    match a with
    | ⟨0, _⟩ => show win1_1.index t (0 : Fin 2) * 5000 + 1 * (y 0).val = win1_7.index t (0 : Fin 2) * 5000 + 1 * (y 0).val; omega
    | ⟨1, _⟩ => show win1_1.index t (1 : Fin 2) * 128 + 1 * k.val = k.val; omega
  · intro z
    show (V c main_v47 : S128x128.Idx → EReal) (((cfg1.win 2).blk t).view.emb z) = _
    refine congrArg _ (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  · intro z
    show (V c main_v48 : S128x128.Idx → EReal) (((cfg1.win 3).blk t).view.emb z) = _
    refine congrArg _ (funext fun a => Fin.ext ?_)
    match a with
    | ⟨0, _⟩ => show win1_3.index t (0 : Fin 2) * 128 + 1 * (z 0).val = (z 0).val; omega
    | ⟨1, _⟩ => show win1_3.index t (1 : Fin 2) * 128 + 1 * (z 1).val = (z 1).val; omega
  · intro z
    show (V c main_v49 : S1x128.Idx → EReal) (((cfg1.win 4).blk t).view.emb z) = _
    refine congrArg _ (funext fun a => Fin.ext ?_)
    match a with
    | ⟨0, _⟩ => show win1_4.index t (0 : Fin 2) * 1 + 1 * (z 0).val = (z 0).val; omega
    | ⟨1, _⟩ => show win1_4.index t (1 : Fin 2) * 128 + 1 * (z 1).val = (z 1).val; omega
  · intro z
    show (V c main_arg8 : S128x128.Idx → EReal) (((cfg1.win 5).blk t).view.emb z) = _
    refine congrArg _ (funext fun a => Fin.ext ?_)
    match a with
    | ⟨0, _⟩ => show win1_5.index t (0 : Fin 2) * 128 + 1 * (z 0).val = (z 0).val; omega
    | ⟨1, _⟩ => show win1_5.index t (1 : Fin 2) * 128 + 1 * (z 1).val = (z 1).val; omega
  · intro z
    show (V c main_v50 : S1x128.Idx → EReal) (((cfg1.win 6).blk t).view.emb z) = _
    refine congrArg _ (funext fun a => Fin.ext ?_)
    match a with
    | ⟨0, _⟩ => show win1_6.index t (0 : Fin 2) * 1 + 1 * (z 0).val = (z 0).val; omega
    | ⟨1, _⟩ => show win1_6.index t (1 : Fin 2) * 128 + 1 * (z 1).val = (z 1).val; omega

/-- An index of the output array is in point t's block iff each coordinate is in the block's range on its axis. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v51).slice (win1_7.rect t)).set ↔ _
  rw [View.set_slice_whole, Rect.mem_set_unit]
  exact Iff.rfl

/-- Every row lies in one of the ten blocks: row n in the block of point n / 5000; and every point writes its block back. -/
theorem covered (i : S50000x128.Idx) :
    ∃ t : Fin cfg1.N, (cfg1.win 7).flush t = true ∧ i ∈ ((cfg1.win 7).blk t).view.set := by
  have hN : cfg1.N = 10 := by decide
  have hi0 : (i 0).val < 50000 := idx2_lt0 i
  have hi1 : (i 1).val < 128 := idx2_lt1 i
  have ht : (i 0).val / 5000 < cfg1.N := by rw [hN]; omega
  obtain ⟨-, -, -, -, -, -, -, -, -, -, -, -, -, -, e70, e71⟩ := block_indices ⟨(i 0).val / 5000, ht⟩
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e70]
    show (i 0).val / 5000 * 5000 ≤ (i 0).val ∧ (i 0).val < (i 0).val / 5000 * 5000 + 5000
    omega
  | ⟨1, _⟩ =>
    show win1_7.index ⟨(i 0).val / 5000, ht⟩ (1 : Fin 2) * 128 ≤ (i 1).val ∧ (i 1).val < win1_7.index ⟨(i 0).val / 5000, ht⟩ (1 : Fin 2) * 128 + 128
    rw [e71]
    omega

/-- The array the region leaves is the node network's output over the arrays the region finds, row by row. -/
theorem region_array (V : (c : Dev nD) → (b : Ref sig .tc) → Buf (Elt Ideal) ((c : Thread nD τ).loc b)) (c : Dev nD) :
    (GenP.dat1 (F := Ideal) V c).arrAt 7 cfg1.N = fun i => Cert.Egnn.nodeTile (V c main_arg0 : S50000x128.Idx → EReal) (V c main_v46 : S50000x128.Idx → EReal)
      (V c main_v47 : S128x128.Idx → EReal) (V c main_v48 : S128x128.Idx → EReal) (V c main_v49 : S1x128.Idx → EReal)
      (V c main_arg8 : S128x128.Idx → EReal) (V c main_v50 : S1x128.Idx → EReal) ⟨(i 0).val, idx2_lt0 i⟩ ⟨(i 1).val, idx2_lt1 i⟩ :=
  (GenP.dat1 (F := Ideal) V c).arrAt_eq_of_cover 7 (regionArray V c) (fun t _ => flushed_eq V c t) covered

end Cert.KernelIdeal.NodeRegion

end
-- ==== Proof.RefValue.lean ====
/-
  The reference's edge features and output, read entry by entry.

  The reference forms, for every edge, the row [h (row e), h (col e), radial (e)] of 257 entries and multiplies it by the
  257 × 128 matrix We1 in ONE product; for every node the row [h (n), agg (n)] of 256 entries by the 256 × 128 matrix
  Wn1. A sum over 257 = 128 + 128 + 1 terms is the sum of its first 128 terms, its next 128 terms and its last term,
  and the entries of a concatenated row in those three ranges are the entries of its three pieces; so the one product
  is the sum of the three (two) products the specification writes, against rows 0 … 127, rows 128 … 255 and row 256
  of the matrix. Only the commutative-monoid laws of addition on the extended reals are used.
  The gathered rows, the radial column and the aggregated edge features stay opaque arrays throughout.
-/
import proofs.«137947_j31825707663881_1_alg».proof.Proof.Gen.ReferenceIdeal.Read
import proofs.«137947_j31825707663881_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.ReferenceIdeal.RefValue

open Cert.ReferenceIdeal Cert.ReferenceIdeal.Gen Cert.ReferenceIdeal.Read Idealize.ShloMosaic Idealize.ShloMosaic.ValueIdx

/-! ## A sum over 256 or 257 terms, split at 128 and at 256 -/

/-- A sum of 256 terms is the sum of the first 128 plus the sum of the last 128. -/
theorem sum_split_256 (f : Fin 256 → EReal) :
    ∑ k : Fin 256, f k
      = (∑ k : Fin 128, f ⟨k.val, by have := k.isLt; omega⟩)
        + ∑ k : Fin 128, f ⟨128 + k.val, by have := k.isLt; omega⟩ :=
  Fin.sum_univ_add (a := 128) (b := 128) f

/-- A sum of 257 terms is the sum of the first 128, plus the sum of the next 128, plus the last term. -/
theorem sum_split_257 (f : Fin 257 → EReal) :
    ∑ k : Fin 257, f k
      = ((∑ k : Fin 128, f ⟨k.val, by have := k.isLt; omega⟩)
        + ∑ k : Fin 128, f ⟨128 + k.val, by have := k.isLt; omega⟩)
        + f ⟨256, by norm_num⟩ := by
  rw [Fin.sum_univ_castSucc (n := 256) f, sum_split_256 (fun i => f (Fin.castSucc i))]
  rfl

/-! ## Pieces of a weight matrix at an entry -/

theorem rowsFrom_entry (o : ℕ) {R : ℕ} (W : Cert.Egnn.Mat R 128) (h : o + 128 ≤ R) (k' k : Fin 128) :
    Cert.Egnn.rowsFrom o W h (ix2 k' k) = W (ix2 ⟨o + k'.val, by have := k'.isLt; omega⟩ k) := rfl

theorem rowAt_entry (o : ℕ) {R : ℕ} (W : Cert.Egnn.Mat R 128) (h : o < R) (k : Fin 128) :
    Cert.Egnn.rowAt o W h (ix2 (0 : Fin 1) k) = W (ix2 ⟨o, h⟩ k) := rfl

theorem asRow_entry (b : Cert.Egnn.Vct 128) (k : Fin 128) :
    Cert.Egnn.asRow b (ix2 (0 : Fin 1) k) = b (ix1 k) := rfl

/-! ## The edge network -/

/-- The concatenated row of edge p, at a column of its first piece: the feature of the edge's first endpoint. -/
theorem edgeRow_first (x0 : (⟨S50000x128, .f32⟩ : BufTy).Contents (Elt Ideal)) (x1 : (⟨S50000x3, .f32⟩ : BufTy).Contents (Elt Ideal)) (x10 : (⟨S2x800000, .i32⟩ : BufTy).Contents (Elt Ideal))
    (p : Fin 800000) (k : Fin 128) :
    val_main_v36 (F := Ideal) x0 x1 x10 (ix2 p (⟨k.val, by have := k.isLt; omega⟩ : Fin 257))
      = val_main_v28 (F := Ideal) x0 x10 (ix2 p k) := by
  unfold val_main_v36
  generalize val_main_v28 (F := Ideal) x0 x10 = a
  generalize val_main_v35 (F := Ideal) x0 x10 = b
  generalize val_main_v21 (F := Ideal) x1 x10 = d
  exact concatenate_apply_piece (t := S800000x257) 1 [⟨S800000x128, a⟩, ⟨S800000x128, b⟩, ⟨S800000x1, d⟩]
    concatenates_S800000x128_S800000x128_S800000x1_S800000x257_d1 _ 0 (by show (0 : ℕ) < 3; omega)
    S800000x128 a rfl rfl 0 rfl (ix2 p k)
    (fun c hc => by
      match c with
      | ⟨0, _⟩ => rfl
      | ⟨1, _⟩ => exact absurd rfl hc)
    (Nat.zero_add _)

/-- … at a column of its second piece: the feature of the edge's second endpoint. -/
theorem edgeRow_second (x0 : (⟨S50000x128, .f32⟩ : BufTy).Contents (Elt Ideal)) (x1 : (⟨S50000x3, .f32⟩ : BufTy).Contents (Elt Ideal)) (x10 : (⟨S2x800000, .i32⟩ : BufTy).Contents (Elt Ideal))
    (p : Fin 800000) (k : Fin 128) :
    val_main_v36 (F := Ideal) x0 x1 x10 (ix2 p (⟨128 + k.val, by have := k.isLt; omega⟩ : Fin 257))
      = val_main_v35 (F := Ideal) x0 x10 (ix2 p k) := by
  unfold val_main_v36
  generalize val_main_v28 (F := Ideal) x0 x10 = a
  generalize val_main_v35 (F := Ideal) x0 x10 = b
  generalize val_main_v21 (F := Ideal) x1 x10 = d
  exact concatenate_apply_piece (t := S800000x257) 1 [⟨S800000x128, a⟩, ⟨S800000x128, b⟩, ⟨S800000x1, d⟩]
    concatenates_S800000x128_S800000x128_S800000x1_S800000x257_d1 _ 1 (by show (1 : ℕ) < 3; omega)
    S800000x128 b rfl rfl 128 rfl (ix2 p k)
    (fun c hc => by
      match c with
      | ⟨0, _⟩ => rfl
      | ⟨1, _⟩ => exact absurd rfl hc)
    rfl

/-- … at its last column: the edge's squared distance. -/
theorem edgeRow_last (x0 : (⟨S50000x128, .f32⟩ : BufTy).Contents (Elt Ideal)) (x1 : (⟨S50000x3, .f32⟩ : BufTy).Contents (Elt Ideal)) (x10 : (⟨S2x800000, .i32⟩ : BufTy).Contents (Elt Ideal))
    (p : Fin 800000) :
    val_main_v36 (F := Ideal) x0 x1 x10 (ix2 p (⟨256, by norm_num⟩ : Fin 257))
      = val_main_v21 (F := Ideal) x1 x10 (ix2 p (0 : Fin 1)) := by
  unfold val_main_v36
  generalize val_main_v28 (F := Ideal) x0 x10 = a
  generalize val_main_v35 (F := Ideal) x0 x10 = b
  generalize val_main_v21 (F := Ideal) x1 x10 = d
  exact concatenate_apply_piece (t := S800000x257) 1 [⟨S800000x128, a⟩, ⟨S800000x128, b⟩, ⟨S800000x1, d⟩]
    concatenates_S800000x128_S800000x128_S800000x1_S800000x257_d1 _ 2 (by show (2 : ℕ) < 3; omega)
    S800000x1 d rfl rfl 256 rfl (ix2 p (0 : Fin 1))
    (fun c hc => by
      match c with
      | ⟨0, _⟩ => rfl
      | ⟨1, _⟩ => exact absurd rfl hc)
    rfl

/-- The indices the first product reads: row p of the concatenated rows, column k of the weights. -/
theorem lidx37_eq (p : Fin 800000) (k : Fin 128) (k' : Fin 257) :
    lidx_main_v37 (ix2 p k) k' = ix2 p k' :=
  funext fun a => Fin.ext (by match a with | ⟨0, _⟩ => rfl | ⟨1, _⟩ => rfl)

theorem ridx37_eq (p : Fin 800000) (k : Fin 128) (k' : Fin 257) :
    ridx_main_v37 (ix2 p k) k' = ix2 k' k :=
  funext fun a => Fin.ext (by match a with | ⟨0, _⟩ => rfl | ⟨1, _⟩ => rfl)

theorem bias39_eq (p : Fin 800000) (k : Fin 128) :
    idx_main_v38 (idx_main_v39 (ix2 p k)) = ix1 k :=
  funext fun a => Fin.ext (by match a with | ⟨0, _⟩ => rfl)

theorem lidx42_eq (p : Fin 800000) (q : Fin 128) (k : Fin 128) :
    lidx_main_v42 (ix2 p q) k = ix2 p k :=
  funext fun a => Fin.ext (by match a with | ⟨0, _⟩ => rfl | ⟨1, _⟩ => rfl)

theorem ridx42_eq (p : Fin 800000) (q : Fin 128) (k : Fin 128) :
    ridx_main_v42 (ix2 p q) k = ix2 k q :=
  funext fun a => Fin.ext (by match a with | ⟨0, _⟩ => rfl | ⟨1, _⟩ => rfl)

theorem bias44_eq (p : Fin 800000) (q : Fin 128) :
    idx_main_v43 (idx_main_v44 (ix2 p q)) = ix1 q :=
  funext fun a => Fin.ext (by match a with | ⟨0, _⟩ => rfl)

/-- The first layer of the edge network at edge p, entry k. -/
theorem edgeHidden_entry (x0 : (⟨S50000x128, .f32⟩ : BufTy).Contents (Elt Ideal)) (x1 : (⟨S50000x3, .f32⟩ : BufTy).Contents (Elt Ideal)) (x2 : (⟨S257x128, .f32⟩ : BufTy).Contents (Elt Ideal)) (x3 : (⟨S128, .f32⟩ : BufTy).Contents (Elt Ideal)) (x10 : (⟨S2x800000, .i32⟩ : BufTy).Contents (Elt Ideal))
    (p : Fin 800000) (k : Fin 128) :
    val_main_v41 (F := Ideal) x0 x1 x2 x3 x10 (ix2 p k)
      = Cert.Egnn.edgeHidden (val_main_v28 (F := Ideal) x0 x10) (val_main_v35 (F := Ideal) x0 x10)
          (val_main_v21 (F := Ideal) x1 x10) (Cert.Egnn.rowsFrom 0 x2 (by norm_num))
          (Cert.Egnn.rowsFrom 128 x2 (by norm_num)) (Cert.Egnn.rowAt 256 x2 (by norm_num)) (Cert.Egnn.asRow x3) p k := by
  rw [val_main_v41_apply, val_main_v40_apply, val_main_v37_apply, val_main_v39_apply, val_main_v38_apply,
    val_main_call0_v0_apply, val_main_call0_cst_apply, Ideal.maximumf_def, Ideal.addf_def, Ideal.ofBits_def,
    bias39_eq]
  simp only [lidx37_eq, ridx37_eq]
  rw [sum_split_257]
  simp only [edgeRow_first, edgeRow_second, edgeRow_last]
  generalize val_main_v28 (F := Ideal) x0 x10 = a
  generalize val_main_v35 (F := Ideal) x0 x10 = b
  generalize val_main_v21 (F := Ideal) x1 x10 = d
  unfold Cert.Egnn.edgeHidden Cert.Egnn.zeroWord
  simp only [rowsFrom_entry, rowAt_entry, asRow_entry, Nat.zero_add]

/-- STATEMENT 1. The reference's edge features, entry by entry, in the specification's form. -/
theorem edgeFeatures_eq (x0 : (⟨S50000x128, .f32⟩ : BufTy).Contents (Elt Ideal)) (x1 : (⟨S50000x3, .f32⟩ : BufTy).Contents (Elt Ideal)) (x2 : (⟨S257x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x10 : (⟨S2x800000, .i32⟩ : BufTy).Contents (Elt Ideal)) :
    val_main_v46 (F := Ideal) x0 x1 x2 x3 x4 x5 x10
      = fun i => Cert.Egnn.edgeTile (val_main_v28 (F := Ideal) x0 x10) (val_main_v35 (F := Ideal) x0 x10)
          (val_main_v21 (F := Ideal) x1 x10) (Cert.Egnn.rowsFrom 0 x2 (by norm_num))
          (Cert.Egnn.rowsFrom 128 x2 (by norm_num)) (Cert.Egnn.rowAt 256 x2 (by norm_num)) (Cert.Egnn.asRow x3)
          x4 (Cert.Egnn.asRow x5) ⟨(i 0).val, idx2_lt0 i⟩ ⟨(i 1).val, idx2_lt1 i⟩ := by
  funext i
  obtain ⟨p, q, rfl⟩ : ∃ (p : Fin 800000) (q : Fin 128), i = ix2 p q := ⟨i 0, i 1, eq_ix2 i⟩
  rw [val_main_v46_apply, val_main_v45_apply, val_main_v42_apply, val_main_v44_apply, val_main_v43_apply,
    val_main_call1_v0_apply, val_main_call1_cst_apply, Ideal.maximumf_def, Ideal.addf_def, Ideal.ofBits_def,
    bias44_eq]
  simp only [lidx42_eq, ridx42_eq, edgeHidden_entry]
  generalize val_main_v28 (F := Ideal) x0 x10 = a
  generalize val_main_v35 (F := Ideal) x0 x10 = b
  generalize val_main_v21 (F := Ideal) x1 x10 = d
  show _ = Cert.Egnn.edgeTile a b d _ _ _ _ x4 _ p q
  unfold Cert.Egnn.edgeTile Cert.Egnn.zeroWord
  simp only [asRow_entry]

/-! ## The node network -/

/-- The concatenated row of node p, at a column of its first piece: the node's own feature. -/
theorem nodeRow_first (x0 : (⟨S50000x128, .f32⟩ : BufTy).Contents (Elt Ideal)) (x1 : (⟨S50000x3, .f32⟩ : BufTy).Contents (Elt Ideal)) (x2 : (⟨S257x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x10 : (⟨S2x800000, .i32⟩ : BufTy).Contents (Elt Ideal))
    (p : Fin 50000) (k : Fin 128) :
    val_main_v50 (F := Ideal) x0 x1 x2 x3 x4 x5 x10 (ix2 p (⟨k.val, by have := k.isLt; omega⟩ : Fin 256))
      = x0 (ix2 p k) := by
  unfold val_main_v50
  generalize val_main_v49 (F := Ideal) x0 x1 x2 x3 x4 x5 x10 = g
  exact concatenate_apply_piece (t := S50000x256) 1 [⟨S50000x128, x0⟩, ⟨S50000x128, g⟩]
    concatenates_S50000x128_S50000x128_S50000x256_d1 _ 0 (by show (0 : ℕ) < 2; omega)
    S50000x128 x0 rfl rfl 0 rfl (ix2 p k)
    (fun c hc => by
      match c with
      | ⟨0, _⟩ => rfl
      | ⟨1, _⟩ => exact absurd rfl hc)
    (Nat.zero_add _)

/-- … at a column of its second piece: the node's aggregated edge features. -/
theorem nodeRow_second (x0 : (⟨S50000x128, .f32⟩ : BufTy).Contents (Elt Ideal)) (x1 : (⟨S50000x3, .f32⟩ : BufTy).Contents (Elt Ideal)) (x2 : (⟨S257x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x10 : (⟨S2x800000, .i32⟩ : BufTy).Contents (Elt Ideal))
    (p : Fin 50000) (k : Fin 128) :
    val_main_v50 (F := Ideal) x0 x1 x2 x3 x4 x5 x10 (ix2 p (⟨128 + k.val, by have := k.isLt; omega⟩ : Fin 256))
      = val_main_v49 (F := Ideal) x0 x1 x2 x3 x4 x5 x10 (ix2 p k) := by
  unfold val_main_v50
  generalize val_main_v49 (F := Ideal) x0 x1 x2 x3 x4 x5 x10 = g
  exact concatenate_apply_piece (t := S50000x256) 1 [⟨S50000x128, x0⟩, ⟨S50000x128, g⟩]
    concatenates_S50000x128_S50000x128_S50000x256_d1 _ 1 (by show (1 : ℕ) < 2; omega)
    S50000x128 g rfl rfl 128 rfl (ix2 p k)
    (fun c hc => by
      match c with
      | ⟨0, _⟩ => rfl
      | ⟨1, _⟩ => exact absurd rfl hc)
    rfl

theorem lidx51_eq (p : Fin 50000) (k : Fin 128) (k' : Fin 256) :
    lidx_main_v51 (ix2 p k) k' = ix2 p k' :=
  funext fun a => Fin.ext (by match a with | ⟨0, _⟩ => rfl | ⟨1, _⟩ => rfl)

theorem ridx51_eq (p : Fin 50000) (k : Fin 128) (k' : Fin 256) :
    ridx_main_v51 (ix2 p k) k' = ix2 k' k :=
  funext fun a => Fin.ext (by match a with | ⟨0, _⟩ => rfl | ⟨1, _⟩ => rfl)

theorem bias53_eq (p : Fin 50000) (k : Fin 128) :
    idx_main_v52 (idx_main_v53 (ix2 p k)) = ix1 k :=
  funext fun a => Fin.ext (by match a with | ⟨0, _⟩ => rfl)

theorem lidx56_eq (p : Fin 50000) (q : Fin 128) (k : Fin 128) :
    lidx_main_v56 (ix2 p q) k = ix2 p k :=
  funext fun a => Fin.ext (by match a with | ⟨0, _⟩ => rfl | ⟨1, _⟩ => rfl)

theorem ridx56_eq (p : Fin 50000) (q : Fin 128) (k : Fin 128) :
    ridx_main_v56 (ix2 p q) k = ix2 k q :=
  funext fun a => Fin.ext (by match a with | ⟨0, _⟩ => rfl | ⟨1, _⟩ => rfl)

theorem bias58_eq (p : Fin 50000) (q : Fin 128) :
    idx_main_v57 (idx_main_v58 (ix2 p q)) = ix1 q :=
  funext fun a => Fin.ext (by match a with | ⟨0, _⟩ => rfl)

/-- The first layer of the node network at node p, entry k. -/
theorem nodeHidden_entry (x0 : (⟨S50000x128, .f32⟩ : BufTy).Contents (Elt Ideal)) (x1 : (⟨S50000x3, .f32⟩ : BufTy).Contents (Elt Ideal)) (x2 : (⟨S257x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x10 : (⟨S2x800000, .i32⟩ : BufTy).Contents (Elt Ideal))
    (p : Fin 50000) (k : Fin 128) :
    val_main_v55 (F := Ideal) x0 x1 x2 x3 x4 x5 x6 x7 x10 (ix2 p k)
      = Cert.Egnn.nodeHidden x0 (val_main_v49 (F := Ideal) x0 x1 x2 x3 x4 x5 x10)
          (Cert.Egnn.rowsFrom 0 x6 (by norm_num)) (Cert.Egnn.rowsFrom 128 x6 (by norm_num)) (Cert.Egnn.asRow x7) p k := by
  rw [val_main_v55_apply, val_main_v54_apply, val_main_v51_apply, val_main_v53_apply, val_main_v52_apply,
    val_main_call2_v0_apply, val_main_call2_cst_apply, Ideal.maximumf_def, Ideal.addf_def, Ideal.ofBits_def,
    bias53_eq]
  simp only [lidx51_eq, ridx51_eq]
  rw [sum_split_256]
  simp only [nodeRow_first, nodeRow_second]
  generalize val_main_v49 (F := Ideal) x0 x1 x2 x3 x4 x5 x10 = g
  unfold Cert.Egnn.nodeHidden Cert.Egnn.zeroWord
  simp only [rowsFrom_entry, asRow_entry, Nat.zero_add]

/-- STATEMENT 2. The reference's output, entry by entry, in the specification's form. -/
theorem output_eq (x0 : (⟨S50000x128, .f32⟩ : BufTy).Contents (Elt Ideal)) (x1 : (⟨S50000x3, .f32⟩ : BufTy).Contents (Elt Ideal)) (x2 : (⟨S257x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x10 : (⟨S2x800000, .i32⟩ : BufTy).Contents (Elt Ideal)) :
    val_main_v60 (F := Ideal) x0 x1 x2 x3 x4 x5 x6 x7 x8 x9 x10
      = fun i => Cert.Egnn.nodeTile x0 (val_main_v49 (F := Ideal) x0 x1 x2 x3 x4 x5 x10)
          (Cert.Egnn.rowsFrom 0 x6 (by norm_num)) (Cert.Egnn.rowsFrom 128 x6 (by norm_num)) (Cert.Egnn.asRow x7)
          x8 (Cert.Egnn.asRow x9) ⟨(i 0).val, idx2_lt0 i⟩ ⟨(i 1).val, idx2_lt1 i⟩ := by
  funext i
  obtain ⟨p, q, rfl⟩ : ∃ (p : Fin 50000) (q : Fin 128), i = ix2 p q := ⟨i 0, i 1, eq_ix2 i⟩
  rw [val_main_v60_apply, val_main_v59_apply, val_main_v56_apply, val_main_v58_apply, val_main_v57_apply,
    Ideal.addf_def, Ideal.addf_def, bias58_eq]
  simp only [lidx56_eq, ridx56_eq, nodeHidden_entry]
  generalize val_main_v49 (F := Ideal) x0 x1 x2 x3 x4 x5 x10 = g
  show _ = Cert.Egnn.nodeTile x0 g _ _ _ x8 _ p q
  unfold Cert.Egnn.nodeTile
  simp only [asRow_entry]

end Cert.ReferenceIdeal.RefValue

end
-- ==== Proof.Bridge.lean ====
/-
  The kernel program's result array is the reference's output of the same arguments.
  The node region leaves the node network's output of what it is handed; what it is handed is the node features, the
  pieces of the node parameters, and the aggregate: the sum into their source nodes of the edge features the edge region
  left, which are the edge network's output of the endpoints' rows, the squared distances and the pieces of the edge
  parameters. Entry by entry these are the reference's edge features and output, in which the one product over the
  concatenated columns is the sum of the products over the pieces. The sum into source nodes is the same operation on both
  sides, applied to equal arrays.
-/
import proofs.«137947_j31825707663881_1_alg».proof.Proof.KHost
import proofs.«137947_j31825707663881_1_alg».proof.Proof.EdgeRegion
import proofs.«137947_j31825707663881_1_alg».proof.Proof.NodeRegion
import proofs.«137947_j31825707663881_1_alg».proof.Proof.RefValue

set_option maxRecDepth 16384

noncomputable section

namespace Cert.KernelIdeal.Bridge

open Cert.KernelIdeal Cert.KernelIdeal.Gen Cert.KernelIdeal.GenP Cert.KernelIdeal.HostRead
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The edge region leaves the reference's edge features. -/
theorem edge_features :
    (W2 m ρ c (Proc.devRef .tc main_v42) : FVec Ideal S800000x128 .bf16)
      = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) := by
  refine (W2_arr m ρ c 9).trans ?_
  rw [Cert.KernelIdeal.EdgeRegion.region_array (V1 m ρ) c, Cert.ReferenceIdeal.RefValue.edgeFeatures_eq,
    V1_v29, V1_v36, V1_v21, V1_v37, V1_v38, V1_v39, V1_v40, V1_arg4, V1_v41]

/-- The aggregate the node region is handed is the reference's. -/
theorem aggregate :
    V3 m ρ c main_v46 = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) := by
  rw [V3_v46, W2_v1, edge_features]
  rfl

/-- The result array is the reference's output. -/
theorem result :
    W4 m ρ c (Proc.devRef .tc main_v51)
      = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 7).trans ?_
  rw [Cert.KernelIdeal.NodeRegion.region_array (V3 m ρ) c, Cert.ReferenceIdeal.RefValue.output_eq,
    V3_arg0, aggregate, V3_v47, V3_v48, V3_v49, V3_arg8, V3_v50]

end Cert.KernelIdeal.Bridge

end
-- ==== Proof.lean ====
/- Equivalence of an EGNN layer's kernel program with its reference over the extended reals.
   Both programs gather the endpoints' features and positions of every edge, apply a two-layer edge network, sum the
   edge features into their source nodes, and apply a two-layer node network with a residual. The kernel program splits
   the first edge layer's matrix product over the concatenation [h_row, h_col, radial] into two products and a rank-one
   term, and the first node layer's product over [h, agg] into two products; a sum over a disjoint union of index ranges
   is the sum of the sums, which holds in every commutative additive monoid and so on the extended reals without any
   finiteness: the precondition is never opened. The second result is the positions argument, returned as it came. -/
import proofs.«137947_j31825707663881_1_alg».proof.Defs
import proofs.«137947_j31825707663881_1_alg».proof.Proof.Gen.Kernel
import proofs.«137947_j31825707663881_1_alg».proof.Proof.Gen.KernelIdeal
import proofs.«137947_j31825707663881_1_alg».proof.Proof.Gen.ReferenceIdeal
import proofs.«137947_j31825707663881_1_alg».proof.Proof.Gen.Pre_finite_inputs
import proofs.«137947_j31825707663881_1_alg».proof.Proof.KernelFrame
import proofs.«137947_j31825707663881_1_alg».proof.Proof.KernelIdealFrame
import proofs.«137947_j31825707663881_1_alg».proof.Proof.KernelIdealRun
import proofs.«137947_j31825707663881_1_alg».proof.Proof.Gen.ReferenceIdeal.Run
import proofs.«137947_j31825707663881_1_alg».proof.Proof.Gen.ReferenceIdeal.Read
import proofs.«137947_j31825707663881_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference runs and leaves its arguments: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the reference's output of those arguments in their
    first result and the positions argument in their second. -/
theorem algebraic : Cert.algebraic_KernelIdeal_ReferenceIdeal := by
  intro m ρ m' ρ' _ hagree
  refine ⟨fun c => Cert.ReferenceIdeal.Read.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => m ((c.tc : Thread Cert.KernelIdeal.nD Cert.KernelIdeal.τ).loc Cert.KernelIdeal.main_arg1), ?_, ?_⟩
  · exact (θ_run Cert.KernelIdeal.defs _ _).mono
      (fun r h c => ⟨(h c).1.trans (Cert.KernelIdeal.Bridge.result m ρ c), (h c).2.2.1, (h c).2⟩)
      (Cert.KernelIdeal.GenP.run_named (F := Ideal) m ρ)
  · refine (θ_run Cert.ReferenceIdeal.defs _ _).mono (fun r h c => ⟨(h c).1.trans ?_, (h c).2.1.trans (hagree c).2.1, (h c).2.2⟩)
      (Cert.ReferenceIdeal.Value.run (F := Ideal) m' ρ')
    rw [Cert.ReferenceIdeal.Read.val_main_v60_eq]
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
